-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S2048x1000 : Shape := ⟨2, ![2048, 1000]⟩
abbrev S2048 : Shape := ⟨1, ![2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S2048x1000 : S_.BroadcastsInDim S2048x1000 (![] : Fin 0 → Fin S2048x1000.rank)
  reducesTo_S2048x1000_S_d0_1 : S2048x1000.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S2048x8192 .f32) (main_arg1 : FVec F S2048x1000 .f32) (main_arg2 : IVec S2048 32) (main_arg3 : FVec F S2048x8192 .f32) (main_arg4 : FVec F S2048x8192 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S2048x1000 .f32 := Host.absf main_arg1
  let main_cst_0 : FVec F S_ .f32 := constant S_ .f32 0x7F800000#32
  let main_v5 : FVec F S2048x1000 .f32 := broadcastInDim S2048x1000 ![] bcast_S_S2048x1000 main_cst_0
  let main_v6 : IVec S2048x1000 1 := cmpf .olt main_v4 main_v5
  let main_c_1 : IVec S_ 1 := constantI S_ 1 1#1
  let main_v7 : IVec S_ 1 := (fun x v => Host.reduce IntOp.andi x v reducesTo_S2048x1000_S_d0_1 h_S_) main_v6 main_c_1
  let main_v8 : IVec S_ 1 := andi main_v3 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S2048x8192 .f32 := Host.absf main_arg4
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S2048x8192 : Shape := ⟨2, ![2048, 8192]⟩
abbrev S2048x1000 : Shape := ⟨2, ![2048, 1000]⟩
abbrev S2048 : Shape := ⟨1, ![2048]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S128x8192 : Shape := ⟨2, ![128, 8192]⟩
abbrev S128x1 : Shape := ⟨2, ![128, 1]⟩

abbrev nBuf : Space → Nat
  | .hbm => 73
  | .vmem => 10
  | .smem => 0
  | _ => 0

abbrev bufTy : (tb : Table) → Fin (tcTables nBuf tb) → BufTy
  | .hbm, ⟨0, _⟩ => ⟨S2048x8192, .f32⟩
  | .hbm, ⟨1, _⟩ => ⟨S2048x1000, .f32⟩
  | .hbm, ⟨2, _⟩ => ⟨S2048, .i32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x1, .f32⟩
  | .hbm, ⟨11, _⟩ => ⟨S2048x1000, .f32⟩
  | .hbm, ⟨12, _⟩ => ⟨S2048x1000, .f32⟩
  | .hbm, ⟨13, _⟩ => ⟨S2048x1000, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S2048x1000, .f32⟩
  | .hbm, ⟨19, _⟩ => ⟨S2048x1000, .f32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048x1, .f32⟩
  | .hbm, ⟨72, _⟩ => ⟨S2048x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x1, .f32⟩
  | .local _ .vmem, ⟨7, _⟩ => ⟨S128x1, .f32⟩
  | .local _ .vmem, ⟨8, _⟩ => ⟨S128x8192, .f32⟩
  | .local _ .vmem, ⟨9, _⟩ => ⟨S128x8192, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_v5 : Ref sig .tc := ⟨.hbm, 46, rfl⟩
abbrev main_cst_0 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst_2 : Ref sig .tc := ⟨.hbm, 56, rfl⟩
abbrev main_v13 : Ref sig .tc := ⟨.hbm, 57, rfl⟩
abbrev main_v14 : Ref sig .tc := ⟨.hbm, 58, rfl⟩
abbrev main_cst_3 : Ref sig .tc := ⟨.hbm, 59, rfl⟩
abbrev main_v15 : Ref sig .tc := ⟨.hbm, 60, rfl⟩
abbrev main_v16 : Ref sig .tc := ⟨.hbm, 61, rfl⟩
abbrev main_cst_4 : Ref sig .tc := ⟨.hbm, 62, rfl⟩
abbrev main_v17 : Ref sig .tc := ⟨.hbm, 63, rfl⟩
abbrev main_v18 : Ref sig .tc := ⟨.hbm, 64, rfl⟩
abbrev main_cst_5 : Ref sig .tc := ⟨.hbm, 65, rfl⟩
abbrev main_v19 : Ref sig .tc := ⟨.hbm, 66, rfl⟩
abbrev main_v20 : Ref sig .tc := ⟨.hbm, 67, rfl⟩
abbrev main_cst_6 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x1000_S2048_d1 : S2048x1000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1000_0_1 : S2048x1.BroadcastsInDim S2048x1000 (![0, 1] : Fin 2 → Fin S2048x1000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  shapeCasts_S2048_S2048x1 : S2048.ShapeCasts S2048x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S128x8192_S128x8192_0_0 : ∀ a, (![0, 0] : Fin 2 → Nat) a + S128x8192.size a ≤ S128x8192.size a
  h_S128x8192 : 0 < S128x8192.numel
  gather_S2048x1000_S2048x1x1_S2048x1_n_1_0_0_1_2_11_wf : GatherDims.WF S2048x1000 S2048x1x1 S2048x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S2048x8192.size a
  hwx0_0 : ∀ i : grid0.Coords, EltTy.bits .f32 = 32 ∨ (Rect.block (s := S2048x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S2048x8192.size a
  hwx0_1 : ∀ i : grid0.Coords, EltTy.bits .f32 = 32 ∨ (Rect.block (s := S2048x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S2048x8192.size a
  hwx0_2 : ∀ i : grid0.Coords, EltTy.bits .f32 = 32 ∨ (Rect.block (s := S2048x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S2048x1.size a
  hwx0_3 : ∀ i : grid0.Coords, EltTy.bits .f32 = 32 ∨ (Rect.block (s := S2048x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S2048x8192.size a
  hwx0_4 : ∀ i : grid0.Coords, EltTy.bits .f32 = 32 ∨ (Rect.block (s := S2048x8192) S128x8192.size (cc0_transform_4 i) (hinb0_4 i)).WholeWords (EltTy.packing .f32)

variable [Facts₀]

def gather_S2048x1000_S2048x1x1_S2048x1_n_1_0_0_1_2_11 : GatherDims S2048x1000 S2048x1x1 S2048x1 where
  offsetDims := []
  collapsedSliceDims := [1]
  operandBatchingDims := [0]
  startIndicesBatchingDims := [0]
  startIndexMap := [1]
  indexVectorDim := 2
  sliceSizes := ![1, 1]
  wf := gather_S2048x1000_S2048x1x1_S2048x1_n_1_0_0_1_2_11_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S2048x1000 : Shape := ⟨2, ![2048, 1000]⟩
abbrev S2048 : Shape := ⟨1, ![2048]⟩
abbrev S_ : Shape := ⟨0, ![]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x1000, .f32⟩
  | .hbm, ⟨2, _⟩ => ⟨S2048, .i32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x1, .f32⟩
  | .hbm, ⟨11, _⟩ => ⟨S2048x1000, .f32⟩
  | .hbm, ⟨12, _⟩ => ⟨S2048x1000, .f32⟩
  | .hbm, ⟨13, _⟩ => ⟨S2048x1000, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x1, .f32⟩
  | .hbm, ⟨18, _⟩ => ⟨S2048x1000, .f32⟩
  | .hbm, ⟨19, _⟩ => ⟨S2048x1000, .f32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S2048x8192, .f32⟩
  | .hbm, ⟨75, _⟩ => ⟨S2048x8192, .i1⟩
  | .hbm, ⟨76, _⟩ => ⟨S2048x1, .f32⟩
  | .hbm, ⟨77, _⟩ => ⟨S2048x8192, .f32⟩
  | .hbm, ⟨78, _⟩ => ⟨S2048x8192, .f32⟩
  | .hbm, ⟨79, _⟩ => ⟨S_, .f32⟩
  | .hbm, ⟨80, _⟩ => ⟨S2048x8192, .f32⟩
  | .hbm, ⟨81, _⟩ => ⟨S2048x8192, .f32⟩
  | .hbm, ⟨82, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_cst : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst_0 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_cst_2 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_cst_4 : Ref sig .tc := ⟨.hbm, 61, rfl⟩
abbrev main_v16 : Ref sig .tc := ⟨.hbm, 62, rfl⟩
abbrev main_v17 : Ref sig .tc := ⟨.hbm, 63, rfl⟩
abbrev main_cst_5 : Ref sig .tc := ⟨.hbm, 64, rfl⟩
abbrev main_v18 : Ref sig .tc := ⟨.hbm, 65, rfl⟩
abbrev main_v19 : Ref sig .tc := ⟨.hbm, 66, rfl⟩
abbrev main_cst_6 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_9 : Ref sig .tc := ⟨.hbm, 79, rfl⟩
abbrev main_call2_v0 : Ref sig .tc := ⟨.hbm, 80, rfl⟩
abbrev main_v29 : Ref sig .tc := ⟨.hbm, 81, rfl⟩
abbrev main_v30 : Ref sig .tc := ⟨.hbm, 82, rfl⟩

abbrev nD : Nat := 1
abbrev τ : Topo := Topo.v7x

variable {F : FTy → Type} [FloatOps F]

class Facts₀ : Prop where
  reducesTo_S2048x1000_S2048_d1 : S2048x1000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1000_0_1 : S2048x1.BroadcastsInDim S2048x1000 (![0, 1] : Fin 2 → Fin S2048x1000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  bcast_S_S2048x8192 : S_.BroadcastsInDim S2048x8192 (![] : Fin 0 → Fin S2048x8192.rank)
  bcast_S2048x1_S2048x8192_0_1 : S2048x1.BroadcastsInDim S2048x8192 (![0, 1] : Fin 2 → Fin S2048x8192.rank)
  gather_S2048x1000_S2048x1x1_S2048x1_n_1_0_0_1_2_11_wf : GatherDims.WF S2048x1000 S2048x1x1 S2048x1 [] [1] [0] [1] [0] 2 ![1, 1]

variable [Facts₀]

def gather_S2048x1000_S2048x1x1_S2048x1_n_1_0_0_1_2_11 : GatherDims S2048x1000 S2048x1x1 S2048x1 where
  offsetDims := []
  collapsedSliceDims := [1]
  operandBatchingDims := [0]
  startIndicesBatchingDims := [0]
  startIndexMap := [1]
  indexVectorDim := 2
  sliceSizes := ![1, 1]
  wf := gather_S2048x1000_S2048x1x1_S2048x1_n_1_0_0_1_2_11_wf

class Facts : Prop extends Facts₀ where

variable [Facts]
-- ==== Proof.NoisedRows.lean ====
/-
  What both programs compute, as one function of the arrays, entry by entry.

  The result is a [2048, 8192] array: entry (r, q) is x(r,q) + noise(r,q)·s(r) where the uniform draw
  u(r,q) lies below the threshold, and x(r,q) + 0 elsewhere. The threshold is the f32 nearest 3/10, the
  same 32-bit word in both programs, so it is never evaluated; the zero is the zero word. The vector s has
  one entry a row: the per-sample noise scale both programs compute from the logits and the labels by the
  same chain of host operations, carried here as an opaque argument. No law of arithmetic joins the two
  sides — only where each reads its operands — so nothing here needs the inputs to be finite.
-/
import Idealize.ShloMosaic.PureOps

noncomputable section

namespace Cert.MaskNoise

open Idealize.ShloMosaic

variable {F : FTy → Type} [FloatOps F]

/-- The shape of x, u, the noise and the result. -/
abbrev Full : Shape := ⟨2, ![2048, 8192]⟩
/-- The shape of the per-row scale. -/
abbrev Rows : Shape := ⟨1, ![2048]⟩
/-- The scale laid out as a column, as the kernel is handed it. -/
abbrev Column : Shape := ⟨2, ![2048, 1]⟩

/-- The row an entry of a full array lies in, as an index of the per-row vector. -/
abbrev rowOf (i : Full.Idx) : Rows.Idx := fun a => match a with
  | ⟨0, _⟩ => ⟨(i 0).val, (i 0).isLt⟩

/-- Row `r` of the column layout: entry (r, 0). -/
abbrev columnAt (r : Rows.Idx) : Column.Idx := fun a => match a with
  | ⟨0, _⟩ => ⟨(r 0).val, (r 0).isLt⟩
  | ⟨1, _⟩ => ⟨0, Nat.one_pos⟩

/-- Entry `i = (r, q)` of the result: `x i + (if u i < 3/10 then n i · s r else 0)`. -/
def noised (x u n : FVec F Full .f32) (s : FVec F Rows .f32) : FVec F Full .f32 := fun i =>
  FloatOps.addf (x i) (Scalar.select (FloatOps.cmpf .olt (u i) (FloatOps.ofBits .f32 0x3E99999A#32))
    (FloatOps.mulf (n i) (s (rowOf i))) (FloatOps.ofBits .f32 0x00000000#32))

end Cert.MaskNoise

end
-- ==== Proof.KernelArray.lean ====
/-
  The idealized kernel's result array, entry by entry.

  The kernel walks the 2048 rows in 16 blocks of 128 rows, every block the full 8192 columns wide. At
  grid point t it is handed rows 128·t … 128·t + 127 of x, of u and of the noise, and the same rows of the
  one-column scale array; it writes back the same rows of the result. Inside a block, entry (p, q) of what
  it stores is x(p,q) + (u(p,q) < 3/10 ? noise(p,q)·scale(p,0) : 0): the scale's single column is repeated
  along the row. Since row p of block t is row 128·t + p of every array, what point t writes back is block
  t of ONE whole-array function, `Cert.MaskNoise.noised`, with the per-row scale read off column 0 of the
  scale array as the launch finds it. The 16 blocks tile the result array (row r lies in block r / 128), so
  after the run the result array is that function.
-/
import proofs.«132877_j20770461843630_1_alg».proof.Proof.Gen.KernelIdeal.Value
import proofs.«132877_j20770461843630_1_alg».proof.Proof.NoisedRows
import Idealize.ShloMosaic.Lib.Pipeline.Value

noncomputable section

namespace Cert.KernelIdeal.Noised

open Cert.KernelIdeal Cert.KernelIdeal.Gen Idealize.ShloMosaic Idealize.ShloMosaic.TcCoe Idealize.SL.Sem
open Idealize.ShloMosaic.Pipeline (Dat)
open Cert.MaskNoise

variable {F : FTy → Type} [FloatOps F]
variable (m : (ℓ : Loc nD τ sig) → Buf (Elt F) ℓ) (ρ : Dev nD → PrngReg)

theorem zeros : (![0, 0] : Fin 2 → Nat) = fun _ => 0 := funext fun a => by fin_cases a <;> rfl

/-! ## Inside one block -/

/-- The three full-width blocks are read at the very index that is written. -/
theorem at_self0 (y : S128x8192.Idx) : Value.ix4_0 y = y :=
  funext fun a => Fin.ext (by match a with | ⟨0, _⟩ => rfl | ⟨1, _⟩ => rfl)
theorem at_self1 (y : S128x8192.Idx) : Value.ix4_1 y = y :=
  funext fun a => Fin.ext (by match a with | ⟨0, _⟩ => rfl | ⟨1, _⟩ => rfl)
theorem at_self2 (y : S128x8192.Idx) : Value.ix4_2 y = y :=
  funext fun a => Fin.ext (by match a with | ⟨0, _⟩ => rfl | ⟨1, _⟩ => rfl)

/-- Entry `y = (p, q)` of what the body leaves in the output block, from the four input blocks: the scale
    block is read at (p, 0). -/
theorem block_entry (x0 x1 x2 : Vec F S128x8192 .f32) (x3 : Vec F S128x1 .f32) (y : S128x8192.Idx) :
    out0_4 x0 x1 x2 x3 y
      = FloatOps.addf (x0 y) (Scalar.select (FloatOps.cmpf .olt (x1 y) (FloatOps.ofBits .f32 0x3E99999A#32))
          (FloatOps.mulf (x2 y) (x3 (Value.ix4_3 y))) (FloatOps.ofBits .f32 0x00000000#32)) := by
  unfold out0_4
  simp only [View.ld_unit_zero (S := S128x8192) zeros, View.ld_unit_zero (S := S128x1) zeros]
  rw [Value.canon4_eq x0 x1 x2 x3 y]
  show FloatOps.addf (x0 (Value.ix4_0 y)) (Scalar.select (FloatOps.cmpf .olt (x1 (Value.ix4_1 y)) (FloatOps.ofBits .f32 0x3E99999A#32))
          (FloatOps.mulf (x2 (Value.ix4_2 y)) (x3 (Value.ix4_3 y))) (FloatOps.ofBits .f32 0x00000000#32)) = _
  rw [at_self0, at_self1, at_self2]

/-! ## Where the blocks lie -/

/-- The five index maps, decided over the 16 grid points: every window is at block row t, block column 0. -/
theorem block_rows : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 15 :=
  (by decide +kernel : ∀ t : Fin grid0.N, _)

/-- Every one of the 16 row blocks is some grid point's. -/
theorem point_of_block : ∀ q : Fin 16, ∃ t : Fin cfg0.N, win0_4.index t = ![q.val, 0] :=
  (by decide +kernel : ∀ q : Fin 16, ∃ t : Fin grid0.N, win0_4.index t = ![q.val, 0])

/-! ## What a grid point writes back -/

/-- The per-row scale the launch finds: column 0 of the [2048, 1] array the host operations before it leave. -/
def scaleOf (c : Dev nD) : FVec F Rows .f32 := fun r => V m c main_v23 (columnAt r)

/-- One entry of the output block, from where each input block reads its array: if the three full-width blocks
    at `y` are the arrays at `i`, and the scale block at `y`'s row is the scale column at `i`'s row, the entry
    is `noised` at `i`. -/
theorem entry_of_reads (A0 A3 A4 : FVec F Full .f32) (S : FVec F Column .f32)
    (x0 x1 x2 : Vec F S128x8192 .f32) (x3 : Vec F S128x1 .f32) (y : S128x8192.Idx) (i : Full.Idx)
    (h0 : x0 y = A0 i) (h1 : x1 y = A3 i) (h2 : x2 y = A4 i) (h3 : x3 (Value.ix4_3 y) = S (columnAt (rowOf i))) :
    out0_4 x0 x1 x2 x3 y = noised A0 A3 A4 (fun r => S (columnAt r)) i := by
  rw [block_entry, h0, h1, h2, h3]
  rfl

/-- Row p of x's block at point t is row 128·t + p of x: the block lies where the output's does. -/
theorem read_x (c : Dev nD) (t : Fin cfg0.N) (j : S128x8192.Idx) :
    iblk m c 0 t j = V m c main_arg0 (((cfg0.win 4).blk t).view.emb j) := by
  obtain ⟨e00, e01, -, -, -, -, -, -, e41, -⟩ := block_rows t
  show V m c main_arg0 (((cfg0.win 0).blk t).view.emb j) = _
  refine congrArg (V m c main_arg0) ?_
  funext a; apply Fin.ext
  match a with
  | ⟨0, _⟩ => show win0_0.index t (0 : Fin 2) * 128 + 1 * (j 0).val = win0_4.index t (0 : Fin 2) * 128 + 1 * (j 0).val; omega
  | ⟨1, _⟩ => show win0_0.index t (1 : Fin 2) * 8192 + 1 * (j 1).val = win0_4.index t (1 : Fin 2) * 8192 + 1 * (j 1).val; omega

/-- The same for u's block. -/
theorem read_u (c : Dev nD) (t : Fin cfg0.N) (j : S128x8192.Idx) :
    iblk m c 1 t j = V m c main_arg3 (((cfg0.win 4).blk t).view.emb j) := by
  obtain ⟨-, -, e10, e11, -, -, -, -, e41, -⟩ := block_rows t
  show V m c main_arg3 (((cfg0.win 1).blk t).view.emb j) = _
  refine congrArg (V m c main_arg3) ?_
  funext a; apply Fin.ext
  match a with
  | ⟨0, _⟩ => show win0_1.index t (0 : Fin 2) * 128 + 1 * (j 0).val = win0_4.index t (0 : Fin 2) * 128 + 1 * (j 0).val; omega
  | ⟨1, _⟩ => show win0_1.index t (1 : Fin 2) * 8192 + 1 * (j 1).val = win0_4.index t (1 : Fin 2) * 8192 + 1 * (j 1).val; omega

/-- The same for the noise's block. -/
theorem read_noise (c : Dev nD) (t : Fin cfg0.N) (j : S128x8192.Idx) :
    iblk m c 2 t j = V m c main_arg4 (((cfg0.win 4).blk t).view.emb j) := by
  obtain ⟨-, -, -, -, e20, e21, -, -, e41, -⟩ := block_rows t
  show V m c main_arg4 (((cfg0.win 2).blk t).view.emb j) = _
  refine congrArg (V m c main_arg4) ?_
  funext a; apply Fin.ext
  match a with
  | ⟨0, _⟩ => show win0_2.index t (0 : Fin 2) * 128 + 1 * (j 0).val = win0_4.index t (0 : Fin 2) * 128 + 1 * (j 0).val; omega
  | ⟨1, _⟩ => show win0_2.index t (1 : Fin 2) * 8192 + 1 * (j 1).val = win0_4.index t (1 : Fin 2) * 8192 + 1 * (j 1).val; omega

/-- Row p of the scale's block at point t, its one column, is entry (128·t + p, 0) of the scale column. -/
theorem read_scale (c : Dev nD) (t : Fin cfg0.N) (j : S128x8192.Idx) :
    iblk m c 3 t (Value.ix4_3 j) = V m c main_v23 (columnAt (rowOf (((cfg0.win 4).blk t).view.emb j))) := by
  obtain ⟨-, -, -, -, -, -, e30, e31, e41, -⟩ := block_rows t
  show V m c main_v23 (((cfg0.win 3).blk t).view.emb (Value.ix4_3 j)) = _
  refine congrArg (V m c main_v23) ?_
  funext a; apply Fin.ext
  match a with
  | ⟨0, _⟩ => show win0_3.index t (0 : Fin 2) * 128 + 1 * (j 0).val = win0_4.index t (0 : Fin 2) * 128 + 1 * (j 0).val; omega
  | ⟨1, _⟩ => show win0_3.index t (1 : Fin 2) * 1 + 1 * 0 = 0; omega

/-- WHAT POINT `t` WRITES BACK is block `t` of `noised` of the arrays as the launch finds them. -/
theorem flushed_eq (c : Dev nD) (t : Fin cfg0.N) :
    (dats m 0 c).flushed 4 t = ((cfg0.win 4).blk t).view.read (Elt F)
      (noised (V m c main_arg0) (V m c main_arg3) (V m c main_arg4) (scaleOf m c)) := by
  rw [Value.flushed4]
  funext j
  exact entry_of_reads (V m c main_arg0) (V m c main_arg3) (V m c main_arg4) (V m c main_v23)
    (iblk m c 0 t) (iblk m c 1 t) (iblk m c 2 t) (iblk m c 3 t) j (((cfg0.win 4).blk t).view.emb j)
    (read_x m c t j) (read_u m c t j) (read_noise m c t j) (read_scale m c t j)

/-! ## The blocks tile the result array -/

/-- An index of the result array is in point `t`'s block iff each coordinate is in the block's range. -/
theorem mem_blk (t : Fin cfg0.N) (i : S2048x8192.Idx) :
    i ∈ ((cfg0.win 4).blk t).view.set ↔ ∀ a : Fin 2, win0_4.index t a * S128x8192.size a ≤ (i a).val ∧ (i a).val < win0_4.index t a * S128x8192.size a + S128x8192.size a := by
  show i ∈ ((View.whole main_v24).slice (win0_4.rect t)).set ↔ _
  rw [View.set_slice_whole, Rect.mem_set_unit]
  exact Iff.rfl

/-- Row r lies in block r / 128: every index is written back by some point. -/
theorem covered (i : S2048x8192.Idx) :
    ∃ t : Fin cfg0.N, (cfg0.win 4).flush t = true ∧ i ∈ ((cfg0.win 4).blk t).view.set := by
  have hi0 : (i 0).val < 2048 := (i 0).isLt
  have hi1 : (i 1).val < 8192 := (i 1).isLt
  obtain ⟨t, ht⟩ := point_of_block ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 8192 ≤ (i 1).val ∧ (i 1).val < win0_4.index t (1 : Fin 2) * 8192 + 8192; omega

/-! ## The array after the run -/

/-- THE RESULT ARRAY after the run: `noised` of the three argument arrays and the scale the launch found. -/
theorem final (c : Dev nD) :
    (dats m 0 c).arrAt 4 cfg0.N
      = noised (m ((c : Thread nD τ).loc main_arg0)) (m ((c : Thread nD τ).loc main_arg3)) (m ((c : Thread nD τ).loc main_arg4)) (scaleOf m c) := by
  have h := (dats m 0 c).arrAt_eq_of_cover 4 _ (fun t _ => flushed_eq m c t) covered
  rw [V_main_arg0 m c, V_main_arg3 m c, V_main_arg4 m c] at h
  exact h

/-- The run, read: the result array at `noised`, every argument unchanged. -/
theorem run : θ_run defs (onTc (τ := τ) (main (F := F))) ⟨m, fun _ => 0, ρ⟩ fun r => ∀ c : Dev nD,
      r.2.mem ((c : Thread nD τ).loc main_v24)
        = noised (m ((c : Thread nD τ).loc main_arg0)) (m ((c : Thread nD τ).loc main_arg3)) (m ((c : Thread nD τ).loc main_arg4)) (scaleOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Noised

end
-- ==== Proof.ReferenceArray.lean ====
/-
  The idealized reference's result array, entry by entry.

  The reference is a straight line of 78 host operations. Its first 68 compute the per-row noise scale s (a
  vector of 2048 entries) from the logits and the labels; they write none of x, u or the noise. The last ten
  compare u with the threshold, lay s out as a column and repeat it along each row, multiply the noise by it,
  choose between that product and zero by the comparison, and add x. Read at entry (r, q): the repeated column
  is s(r), a scalar spread over the array is that scalar, and every other operation acts entry by entry; so
  the result is `Cert.MaskNoise.noised` of x, u, the noise and s.
-/
import proofs.«132877_j20770461843630_1_alg».proof.Proof.RefRun
import proofs.«132877_j20770461843630_1_alg».proof.Proof.NoisedRows
import Idealize.ShloMosaic.Lib.StableHlo.Run
import Idealize.ShloMosaic.Lib.Pipeline.Value
import Idealize.ShloMosaic.Lib.Pipeline.Frame

noncomputable section

namespace Cert.ReferenceIdeal.Noised

open Cert.ReferenceIdeal Cert.ReferenceIdeal.Gen Cert.ReferenceIdeal.ValueP
open Idealize.ShloMosaic Idealize.ShloMosaic.TcCoe Idealize.SL.Sem Idealize.ShloMosaic.StableHlo
open Cert.MaskNoise

variable {F : FTy → Type} [FloatOps F]

/-! ## Two layouts read at an entry -/

/-- A scalar constant spread over the whole array is that constant at every entry. -/
theorem splat_at (w : BitVec 32) (i : S2048x8192.Idx) :
    broadcastInDim S2048x8192 ![] bcast_S_S2048x8192 (constant (F := F) S_ .f32 w) i = FloatOps.ofBits .f32 w :=
  broadcastInDim_apply _ bcast_S_S2048x8192 _ i (fun a => a.elim0) (fun a => a.elim0)

/-- A vector laid out as a column and repeated along each row is, at entry (r, q), the vector at r. -/
theorem spread_at (s : FVec F S2048 .f32) (i : S2048x8192.Idx) :
    broadcastInDim S2048x8192 ![0, 1] bcast_S2048x1_S2048x8192_0_1 (broadcastInDim S2048x1 ![0] bcast_S2048_S2048x1_0 s) i
      = s (rowOf i) := by
  refine (broadcastInDim_apply _ bcast_S2048x1_S2048x8192_0_1 _ i (columnAt (rowOf i)) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl])).trans ?_
  exact broadcastInDim_apply _ bcast_S2048_S2048x1_0 s (columnAt (rowOf i)) (rowOf i) (fun a => match a with
    | ⟨0, _⟩ => by show (i 0).val = if (2048 : Nat) = 1 then 0 else (i 0).val; rw [if_neg (by decide)])

/-! ## The last ten operations -/

/-- From any contents, the last ten operations leave in the result buffer `noised` of the contents of x, u, the
    noise and the scale vector. -/
theorem tail_entry (W : Valuation τ sig (Elt F)) :
    after ((ops (F := F)).drop 68) W (Proc.devRef .tc main_v30)
      = noised (W (Proc.devRef .tc main_arg0)) (W (Proc.devRef .tc main_arg3)) (W (Proc.devRef .tc main_arg4))
          (W (Proc.devRef .tc main_v23)) := by
  simp only [ops, List.drop_succ_cons, List.drop_zero]
  after_results_simp
  simp only [cast_eq]
  funext i
  show FloatOps.addf (W (Proc.devRef .tc main_arg0) i)
      (Scalar.select (FloatOps.cmpf .olt (W (Proc.devRef .tc main_arg3) i)
          (broadcastInDim S2048x8192 ![] bcast_S_S2048x8192 (constant (F := F) S_ .f32 0x3E99999A#32) i))
        (FloatOps.mulf (W (Proc.devRef .tc main_arg4) i)
          (broadcastInDim S2048x8192 ![0, 1] bcast_S2048x1_S2048x8192_0_1
            (broadcastInDim S2048x1 ![0] bcast_S2048_S2048x1_0 (W (Proc.devRef .tc main_v23))) i))
        (broadcastInDim S2048x8192 ![] bcast_S_S2048x8192 (constant (F := F) S_ .f32 0x00000000#32) i))
    = _
  rw [splat_at, splat_at, spread_at]
  rfl

/-! ## The first 68 operations -/

/-- The line of operations, cut after the 68th. -/
theorem ops_split (V : Valuation τ sig (Elt F)) :
    after (ops (F := F)) V = after ((ops (F := F)).drop 68) (after ((ops (F := F)).take 68) V) := by
  have h := StableHlo.after_append ((ops (F := F)).take 68) ((ops (F := F)).drop 68) V
  rwa [List.take_append_drop] at h

/-- None of the first 68 operations writes x, -/
theorem head_keeps_x (V : Valuation τ sig (Elt F)) :
    after ((ops (F := F)).take 68) V (Proc.devRef .tc main_arg0) = V (Proc.devRef .tc main_arg0) := by
  simp only [ops, List.take_succ_cons, List.take_zero]
  after_results_simp
/-- nor u, -/
theorem head_keeps_u (V : Valuation τ sig (Elt F)) :
    after ((ops (F := F)).take 68) V (Proc.devRef .tc main_arg3) = V (Proc.devRef .tc main_arg3) := by
  simp only [ops, List.take_succ_cons, List.take_zero]
  after_results_simp
/-- nor the noise. -/
theorem head_keeps_noise (V : Valuation τ sig (Elt F)) :
    after ((ops (F := F)).take 68) V (Proc.devRef .tc main_arg4) = V (Proc.devRef .tc main_arg4) := by
  simp only [ops, List.take_succ_cons, List.take_zero]
  after_results_simp

/-- The per-row scale the reference computes: what its first 68 operations leave in the buffer of the scale. -/
def scaleOf (m : (ℓ : Loc nD τ sig) → Buf (Elt F) ℓ) (c : Dev nD) : FVec F Rows .f32 :=
  after ((ops (F := F)).take 68) (launchContents m c) (Proc.devRef .tc main_v23)

/-- THE RESULT of the whole line, from the launch contents. -/
theorem result_eq (m : (ℓ : Loc nD τ sig) → Buf (Elt F) ℓ) (c : Dev nD) :
    after (ops (F := F)) (launchContents m c) (Proc.devRef .tc main_v30)
      = noised (m ((c.tc : Thread nD τ).loc main_arg0)) (m ((c.tc : Thread nD τ).loc main_arg3)) (m ((c.tc : Thread nD τ).loc main_arg4))
          (scaleOf m c) := by
  rw [ops_split, tail_entry, head_keeps_x, head_keeps_u, head_keeps_noise]
  rfl

/-! ## The run -/

set_option maxRecDepth 8192 in
set_option maxHeartbeats 31200000 in
/-- Every weakly fair execution of the reference terminates with the result array at `noised` and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = noised (m ((c.tc : Thread nD τ).loc main_arg0)) (m ((c.tc : Thread nD τ).loc main_arg3)) (m ((c.tc : Thread nD τ).loc main_arg4))
            (scaleOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Noised

end
-- ==== Proof.LibTypedRef.lean ====
/-
  Typed references of module-local functions, read back.

  An operation of a function the program calls writes its result through a typed reference: the buffer
  together with an equation saying that the buffer's type is the value's. Writing transports contents of the
  value's type to the buffer's type along that equation, reading transports them back; so what one operation
  wrote and the next reads back through the same typed reference is the value itself. Stated once for an
  arbitrary typed reference (the equation is substituted away), this cancels every write-then-read pair inside
  a chain of such operations by rewriting, whatever the values are, leaving one transport at each end of the
  chain — where, for a literal buffer, it is the identity on any contents by computation.
-/
import Idealize.ShloMosaic.Lib.StableHlo

noncomputable section

namespace Idealize.ShloMosaic.TypedRef

open Idealize.ShloMosaic Idealize.ShloMosaic.StableHlo

/-- Contents written through a typed reference and read back through it are the contents. -/
theorem ofBuf_toBuf {sig : RefSig} {Val : EltTy → Type} {T : BufTy} (x : TRef sig T) (z : T.Contents Val) :
    x.ofBuf (x.toBuf z) = z := by
  obtain ⟨r, h, h2, h3⟩ := x
  subst h
  rfl

/-- Contents read through a typed reference and written back through it are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.TypedRef

end
-- ==== Proof.HostHeads.lean ====
/-
  The two programs compute the per-row noise scale by the same host operations.

  Before its one launch the kernel's program runs, on the host, a log-softmax of the logits, a lookup of each
  row's label in it, the sign change that makes the lookup a loss, and the affine normalisation
  min(0.1 · (1 + 1 · (1 − (loss − min loss) / (max loss − min loss + 1e-8))), 1), then lays the 2048 scales out as
  a column. The reference runs the very same operations (it takes the minimum of the loss a second time, which
  is the same value) and keeps the scales as a vector. Read one stretch at a time — the log-softmax, the
  labels laid out as a column, the lookup, the normalisation — each stretch of one program leaves, in the
  buffer the next stretch reads, the same contents as that stretch of the other, whenever the contents they
  start from agree on the buffers the stretch reads. Nothing is ever evaluated: each stretch's result is the
  same tree of operations over the same leaves on both sides.
-/
import proofs.«132877_j20770461843630_1_alg».proof.Proof.Gen.KernelIdeal.Frame
import proofs.«132877_j20770461843630_1_alg».proof.Proof.RefRun
import proofs.«132877_j20770461843630_1_alg».proof.Proof.LibTypedRef
import Idealize.ShloMosaic.Lib.StableHlo.Run

noncomputable section

namespace Cert.HostHeads

open Idealize.ShloMosaic Idealize.ShloMosaic.TcCoe Idealize.SL.Sem Idealize.ShloMosaic.StableHlo

variable {F : FTy → Type} [FloatOps F]
variable (W : Valuation Cert.KernelIdeal.τ Cert.KernelIdeal.sig (Elt F)) (W' : Valuation Cert.ReferenceIdeal.τ Cert.ReferenceIdeal.sig (Elt F))

/-! ## The reference's operations, in stretches -/

/-- The log-softmax: the reference's first 15 operations. -/
abbrev refLogSoftmax : List (HloOp Cert.ReferenceIdeal.τ Cert.ReferenceIdeal.sig (Elt F)) := (Cert.ReferenceIdeal.ValueP.ops (F := F)).take 15
/-- The labels laid out as a column: its 16th. -/
abbrev refLabels : List (HloOp Cert.ReferenceIdeal.τ Cert.ReferenceIdeal.sig (Elt F)) := ((Cert.ReferenceIdeal.ValueP.ops (F := F)).drop 15).take 1
/-- The lookup of each row's label: the next 22. -/
abbrev refLookup : List (HloOp Cert.ReferenceIdeal.τ Cert.ReferenceIdeal.sig (Elt F)) := ((Cert.ReferenceIdeal.ValueP.ops (F := F)).drop 16).take 22
/-- The loss and its normalisation into the scale: the next 30. -/
abbrev refNormalise : List (HloOp Cert.ReferenceIdeal.τ Cert.ReferenceIdeal.sig (Elt F)) := ((Cert.ReferenceIdeal.ValueP.ops (F := F)).drop 38).take 30

/-! ## Reading and writing through a typed reference of a literal buffer is the identity

The buffers a called function's operations name are literal, and the type of a literal buffer is the value's type
by computation: the transport along that equation is the identity on any contents. One statement per buffer at
which a stretch begins or ends (and, inside the lookup, at the two buffers around its recast of the index column),
in each program. -/

theorem k_arg1_read (v : Cert.KernelIdeal.main_arg1.ty.Contents (Elt F)) :
    (TRef.of (sig := Cert.KernelIdeal.sig) (T := ⟨Cert.KernelIdeal.S2048x1000, .f32⟩) Cert.KernelIdeal.main_arg1).ofBuf (Val := Elt F) v = v := rfl
theorem r_arg1_read (v : Cert.ReferenceIdeal.main_arg1.ty.Contents (Elt F)) :
    (TRef.of (sig := Cert.ReferenceIdeal.sig) (T := ⟨Cert.ReferenceIdeal.S2048x1000, .f32⟩) Cert.ReferenceIdeal.main_arg1).ofBuf (Val := Elt F) v = v := rfl
theorem k_v0_write (z : (⟨Cert.KernelIdeal.S2048x1000, .f32⟩ : BufTy).Contents (Elt F)) :
    (TRef.of (sig := Cert.KernelIdeal.sig) (T := ⟨Cert.KernelIdeal.S2048x1000, .f32⟩) Cert.KernelIdeal.main_v0).toBuf (Val := Elt F) z = z := rfl
theorem r_v0_write (z : (⟨Cert.ReferenceIdeal.S2048x1000, .f32⟩ : BufTy).Contents (Elt F)) :
    (TRef.of (sig := Cert.ReferenceIdeal.sig) (T := ⟨Cert.ReferenceIdeal.S2048x1000, .f32⟩) Cert.ReferenceIdeal.main_v0).toBuf (Val := Elt F) z = z := rfl
theorem k_v0_read (v : Cert.KernelIdeal.main_v0.ty.Contents (Elt F)) :
    (TRef.of (sig := Cert.KernelIdeal.sig) (T := ⟨Cert.KernelIdeal.S2048x1000, .f32⟩) Cert.KernelIdeal.main_v0).ofBuf (Val := Elt F) v = v := rfl
theorem r_v0_read (v : Cert.ReferenceIdeal.main_v0.ty.Contents (Elt F)) :
    (TRef.of (sig := Cert.ReferenceIdeal.sig) (T := ⟨Cert.ReferenceIdeal.S2048x1000, .f32⟩) Cert.ReferenceIdeal.main_v0).ofBuf (Val := Elt F) v = v := rfl
theorem k_v1_read (v : Cert.KernelIdeal.main_v1.ty.Contents (Elt F)) :
    (TRef.of (sig := Cert.KernelIdeal.sig) (T := ⟨Cert.KernelIdeal.S2048x1, .i32⟩) Cert.KernelIdeal.main_v1).ofBuf (Val := Elt F) v = v := rfl
theorem r_v1_read (v : Cert.ReferenceIdeal.main_v1.ty.Contents (Elt F)) :
    (TRef.of (sig := Cert.ReferenceIdeal.sig) (T := ⟨Cert.ReferenceIdeal.S2048x1, .i32⟩) Cert.ReferenceIdeal.main_v1).ofBuf (Val := Elt F) v = v := rfl
theorem k_idx_write (z : (⟨Cert.KernelIdeal.S2048x1, .i32⟩ : BufTy).Contents (Elt F)) :
    (TRef.of (sig := Cert.KernelIdeal.sig) (T := ⟨Cert.KernelIdeal.S2048x1, .i32⟩) Cert.KernelIdeal.main_call1_v4).toBuf (Val := Elt F) z = z := rfl
theorem r_idx_write (z : (⟨Cert.ReferenceIdeal.S2048x1, .i32⟩ : BufTy).Contents (Elt F)) :
    (TRef.of (sig := Cert.ReferenceIdeal.sig) (T := ⟨Cert.ReferenceIdeal.S2048x1, .i32⟩) Cert.ReferenceIdeal.main_call1_v4).toBuf (Val := Elt F) z = z := rfl
theorem k_idx3_read (v : Cert.KernelIdeal.main_call1_v5.ty.Contents (Elt F)) :
    (TRef.of (sig := Cert.KernelIdeal.sig) (T := ⟨Cert.KernelIdeal.S2048x1x1, .i32⟩) Cert.KernelIdeal.main_call1_v5).ofBuf (Val := Elt F) v = v := rfl
theorem r_idx3_read (v : Cert.ReferenceIdeal.main_call1_v5.ty.Contents (Elt F)) :
    (TRef.of (sig := Cert.ReferenceIdeal.sig) (T := ⟨Cert.ReferenceIdeal.S2048x1x1, .i32⟩) Cert.ReferenceIdeal.main_call1_v5).ofBuf (Val := Elt F) v = v := rfl
theorem k_v2_write (z : (⟨Cert.KernelIdeal.S2048x1, .f32⟩ : BufTy).Contents (Elt F)) :
    (TRef.of (sig := Cert.KernelIdeal.sig) (T := ⟨Cert.KernelIdeal.S2048x1, .f32⟩) Cert.KernelIdeal.main_v2).toBuf (Val := Elt F) z = z := rfl
theorem r_v2_write (z : (⟨Cert.ReferenceIdeal.S2048x1, .f32⟩ : BufTy).Contents (Elt F)) :
    (TRef.of (sig := Cert.ReferenceIdeal.sig) (T := ⟨Cert.ReferenceIdeal.S2048x1, .f32⟩) Cert.ReferenceIdeal.main_v2).toBuf (Val := Elt F) z = z := rfl

/-! ## Stretch by stretch -/

/-- The log-softmax of logits that agree. -/
theorem logSoftmax_agree (h1 : W (Proc.devRef .tc Cert.KernelIdeal.main_arg1) = W' (Proc.devRef .tc Cert.ReferenceIdeal.main_arg1)) :
    after (Cert.KernelIdeal.Gen.hostOps0 (F := F)) W (Proc.devRef .tc Cert.KernelIdeal.main_v0) = after (refLogSoftmax (F := F)) W' (Proc.devRef .tc Cert.ReferenceIdeal.main_v0) := by
  simp only [refLogSoftmax, refLabels, refLookup, refNormalise, Cert.ReferenceIdeal.ValueP.ops, List.take_succ_cons, List.take_zero, List.drop_succ_cons, List.drop_zero]
  after_results_simp
  simp only [TypedRef.ofBuf_toBuf]
  rw [k_v0_write, r_v0_write]
  simp only [k_arg1_read, r_arg1_read]
  rw [h1]

/-- The log-softmax writes neither program's labels. -/
theorem k_logSoftmax_keeps_labels : after (Cert.KernelIdeal.Gen.hostOps0 (F := F)) W (Proc.devRef .tc Cert.KernelIdeal.main_arg2) = W (Proc.devRef .tc Cert.KernelIdeal.main_arg2) := by
  after_results_simp
theorem r_logSoftmax_keeps_labels : after (refLogSoftmax (F := F)) W' (Proc.devRef .tc Cert.ReferenceIdeal.main_arg2) = W' (Proc.devRef .tc Cert.ReferenceIdeal.main_arg2) := by
  simp only [refLogSoftmax, refLabels, refLookup, refNormalise, Cert.ReferenceIdeal.ValueP.ops, List.take_succ_cons, List.take_zero, List.drop_succ_cons, List.drop_zero]
  after_results_simp

/-- The labels as a column, of labels that agree. -/
theorem labels_agree (h2 : W (Proc.devRef .tc Cert.KernelIdeal.main_arg2) = W' (Proc.devRef .tc Cert.ReferenceIdeal.main_arg2)) :
    after (Cert.KernelIdeal.Gen.hostOps0_1 (F := F)) W (Proc.devRef .tc Cert.KernelIdeal.main_v1) = after (refLabels (F := F)) W' (Proc.devRef .tc Cert.ReferenceIdeal.main_v1) := by
  simp only [refLogSoftmax, refLabels, refLookup, refNormalise, Cert.ReferenceIdeal.ValueP.ops, List.take_succ_cons, List.take_zero, List.drop_succ_cons, List.drop_zero]
  after_results_simp
  rw [h2]

/-- Laying out the labels does not write the log-probabilities. -/
theorem k_labels_keeps_logp : after (Cert.KernelIdeal.Gen.hostOps0_1 (F := F)) W (Proc.devRef .tc Cert.KernelIdeal.main_v0) = W (Proc.devRef .tc Cert.KernelIdeal.main_v0) := by
  after_results_simp
theorem r_labels_keeps_logp : after (refLabels (F := F)) W' (Proc.devRef .tc Cert.ReferenceIdeal.main_v0) = W' (Proc.devRef .tc Cert.ReferenceIdeal.main_v0) := by
  simp only [refLogSoftmax, refLabels, refLookup, refNormalise, Cert.ReferenceIdeal.ValueP.ops, List.take_succ_cons, List.take_zero, List.drop_succ_cons, List.drop_zero]
  after_results_simp

/-- The lookup, of log-probabilities and label columns that agree. -/
theorem lookup_agree (h0 : W (Proc.devRef .tc Cert.KernelIdeal.main_v0) = W' (Proc.devRef .tc Cert.ReferenceIdeal.main_v0)) (h1 : W (Proc.devRef .tc Cert.KernelIdeal.main_v1) = W' (Proc.devRef .tc Cert.ReferenceIdeal.main_v1)) :
    after (Cert.KernelIdeal.Gen.hostOps0_2 (F := F)) W (Proc.devRef .tc Cert.KernelIdeal.main_v2) = after (refLookup (F := F)) W' (Proc.devRef .tc Cert.ReferenceIdeal.main_v2) := by
  simp only [refLogSoftmax, refLabels, refLookup, refNormalise, Cert.ReferenceIdeal.ValueP.ops, List.take_succ_cons, List.take_zero, List.drop_succ_cons, List.drop_zero]
  after_results_simp
  simp only [TypedRef.ofBuf_toBuf]
  rw [k_v2_write, r_v2_write]
  simp only [k_v0_read, r_v0_read, k_v1_read, r_v1_read, k_idx_write, r_idx_write, k_idx3_read, r_idx3_read]
  rw [h0, h1]
  rfl

/-- The normalisation, of looked-up log-probabilities that agree: the kernel's program then recasts the scale
    vector as a column. -/
theorem normalise_agree (h : W (Proc.devRef .tc Cert.KernelIdeal.main_v2) = W' (Proc.devRef .tc Cert.ReferenceIdeal.main_v2)) :
    after (Cert.KernelIdeal.Gen.hostOps0_3 (F := F)) W (Proc.devRef .tc Cert.KernelIdeal.main_v23)
      = shapeCast Cert.KernelIdeal.S2048x1 (after (refNormalise (F := F)) W' (Proc.devRef .tc Cert.ReferenceIdeal.main_v23)) Cert.KernelIdeal.Gen.shapeCasts_S2048_S2048x1 := by
  simp only [refLogSoftmax, refLabels, refLookup, refNormalise, Cert.ReferenceIdeal.ValueP.ops, List.take_succ_cons, List.take_zero, List.drop_succ_cons, List.drop_zero]
  after_results_simp
  rw [h]
  try rfl

/-! ## The whole head -/

/-- From contents that agree on the logits and the labels, the kernel's program hands its launch, as a column,
    the scale vector the reference's first 68 operations compute. -/
theorem head_agree (h1 : W (Proc.devRef .tc Cert.KernelIdeal.main_arg1) = W' (Proc.devRef .tc Cert.ReferenceIdeal.main_arg1)) (h2 : W (Proc.devRef .tc Cert.KernelIdeal.main_arg2) = W' (Proc.devRef .tc Cert.ReferenceIdeal.main_arg2)) :
    after (Cert.KernelIdeal.Gen.hostOps0_3 (F := F)) (after (Cert.KernelIdeal.Gen.hostOps0_2 (F := F)) (after (Cert.KernelIdeal.Gen.hostOps0_1 (F := F)) (after (Cert.KernelIdeal.Gen.hostOps0 (F := F)) W))) (Proc.devRef .tc Cert.KernelIdeal.main_v23)
      = shapeCast Cert.KernelIdeal.S2048x1
          (after (refNormalise (F := F)) (after (refLookup (F := F)) (after (refLabels (F := F)) (after (refLogSoftmax (F := F)) W'))) (Proc.devRef .tc Cert.ReferenceIdeal.main_v23))
          Cert.KernelIdeal.Gen.shapeCasts_S2048_S2048x1 :=
  normalise_agree _ _ (lookup_agree _ _
    ((k_labels_keeps_logp _).trans ((logSoftmax_agree W W' h1).trans (r_labels_keeps_logp _).symm))
    (labels_agree _ _ ((k_logSoftmax_keeps_labels W).trans (h2.trans (r_logSoftmax_keeps_labels W').symm))))

/-- The reference's first 68 operations are the four stretches in a row. -/
theorem ref_head_split : after ((Cert.ReferenceIdeal.ValueP.ops (F := F)).take 68) W'
    = after (refNormalise (F := F)) (after (refLookup (F := F)) (after (refLabels (F := F)) (after (refLogSoftmax (F := F)) W'))) := by
  simp only [refLogSoftmax, refLabels, refLookup, refNormalise, Cert.ReferenceIdeal.ValueP.ops, List.take_succ_cons, List.take_zero, List.drop_succ_cons, List.drop_zero]
  simp only [after_cons, after_nil]

end Cert.HostHeads

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.ScaleAgree.lean ====
/-
  The scale the kernel is handed is the scale the reference computes.

  The kernel's launch finds, in the one-column array its fourth window stages, what the host operations before
  the launch left there; the reference's scale is what its first 68 operations leave in the buffer of the
  scale vector. From launch memories that agree on the logits and the labels the two heads agree stretch by
  stretch (Proof/HostHeads.lean), the kernel's program ending with the recast of the 2048-vector to a
  [2048, 1] column; and entry (r, 0) of a vector recast as a column is the vector's entry r (both are the r-th
  element in row-major order). So the column read at its rows is the reference's vector.
-/
import proofs.«132877_j20770461843630_1_alg».proof.Proof.KernelArray
import proofs.«132877_j20770461843630_1_alg».proof.Proof.ReferenceArray
import proofs.«132877_j20770461843630_1_alg».proof.Proof.HostHeads
import proofs.«132877_j20770461843630_1_alg».proof.Proof.LibKeepdims
import Idealize.ShloMosaic.Lib.Pipeline.Frame

noncomputable section

namespace Cert.ScaleAgree

open Idealize.ShloMosaic Idealize.ShloMosaic.TcCoe Idealize.SL.Sem Idealize.ShloMosaic.StableHlo Idealize.ShloMosaic.ValueIdx
open Cert.MaskNoise

variable {F : FTy → Type} [FloatOps F]

/-- Entry (r, 0) of a 2048-vector recast as a [2048, 1] column is the vector's entry r. -/
theorem column_entry {α : Type} (s : Rows.Idx → α) (h : Rows.ShapeCasts Column) (r : Rows.Idx) :
    shapeCast Column s h (columnAt r) = s r := by
  have e1 : columnAt r = ix2 (⟨(r 0).val, (r 0).isLt⟩ : Fin 2048) (0 : Fin 1) :=
    funext fun a => by match a with | ⟨0, _⟩ => rfl | ⟨1, _⟩ => rfl
  have e2 : ix1 (⟨(r 0).val, (r 0).isLt⟩ : Fin 2048) = r :=
    funext fun a => by match a with | ⟨0, _⟩ => rfl
  exact (congrArg (shapeCast Column s h) e1).trans ((Keepdims.shapeCast_a_a1_apply s h _ _).trans (congrArg s e2))

/-- What the kernel's launch finds in the scale column: the launch memory after the four host stretches. -/
theorem kernel_column (m : (ℓ : Loc Cert.KernelIdeal.nD Cert.KernelIdeal.τ Cert.KernelIdeal.sig) → Buf (Elt F) ℓ) (c : Dev Cert.KernelIdeal.nD) :
    Cert.KernelIdeal.Gen.V m c Cert.KernelIdeal.main_v23
      = after (Cert.KernelIdeal.Gen.hostOps0_3 (F := F)) (after (Cert.KernelIdeal.Gen.hostOps0_2 (F := F))
          (after (Cert.KernelIdeal.Gen.hostOps0_1 (F := F)) (after (Cert.KernelIdeal.Gen.hostOps0 (F := F)) (fun b => m (c, b)))))
          (Proc.devRef .tc Cert.KernelIdeal.main_v23) := by
  dsimp only [Cert.KernelIdeal.Gen.V]
  simp only [List.flatten_cons, List.flatten_nil, List.append_nil, StableHlo.after_append]

/-- THE TWO SCALES ARE ONE, from launch memories that agree on the logits and the labels. -/
theorem scale_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    Cert.KernelIdeal.Noised.scaleOf m c = Cert.ReferenceIdeal.Noised.scaleOf m' c := by
  funext r
  show Cert.KernelIdeal.Gen.V m c Cert.KernelIdeal.main_v23 (columnAt r)
    = after ((Cert.ReferenceIdeal.ValueP.ops (F := F)).take 68) (launchContents m' c) (Proc.devRef .tc Cert.ReferenceIdeal.main_v23) r
  rw [kernel_column, Cert.HostHeads.head_agree (fun b => m (c, b)) (launchContents m' c) h1.symm h2.symm,
    ← Cert.HostHeads.ref_head_split]
  exact column_entry _ _ r

end Cert.ScaleAgree

end
-- ==== Proof.lean ====
/-
  The certificate of the noise-injection kernel against its jnp reference, over the extended reals.

  Both programs compute, for a [2048, 8192] array x, a uniform draw u, a noise array and a per-row scale s,
      out(r, q) = x(r, q) + (u(r, q) < 3/10 ? noise(r, q) · s(r) : 0),
  the threshold being the f32 nearest 3/10 (the same word on both sides). Both compute s from the logits and the
  labels by the same host operations: s = min(0.1 · (1 + 1 · (1 − (ℓ − min ℓ) / (max ℓ − min ℓ + 1e-8))), 1) with ℓ the
  per-row cross-entropy loss. The kernel does the masked addition block by block on 16 blocks of 128 rows, with s
  handed to it as a column; the reference does it in ten whole-array host operations.

  • Proof/NoisedRows.lean: the function `noised` of x, u, the noise and s.
  • Proof/KernelArray.lean: the kernel's result array is `noised` with s read off the column the launch finds.
  • Proof/ReferenceArray.lean: the reference's result array is `noised` with s what its first 68 operations leave.
  • Proof/HostHeads.lean, Proof/ScaleAgree.lean: the two s are one, stretch by stretch of the shared host head.
  No law of arithmetic is used — the two sides apply the same operations to the same operands — so the
  precondition (finite inputs) is never opened. The idealization rewrote no operation: `preserves` is `True`.
-/
import proofs.«132877_j20770461843630_1_alg».proof.Defs
import proofs.«132877_j20770461843630_1_alg».proof.Proof.Gen.Kernel
import proofs.«132877_j20770461843630_1_alg».proof.Proof.Gen.Kernel.Skeleton
import proofs.«132877_j20770461843630_1_alg».proof.Proof.Gen.Kernel.Launch
import proofs.«132877_j20770461843630_1_alg».proof.Proof.Gen.Kernel.Points
import proofs.«132877_j20770461843630_1_alg».proof.Proof.Gen.Kernel.Frame
import proofs.«132877_j20770461843630_1_alg».proof.Proof.Gen.KernelIdeal
import proofs.«132877_j20770461843630_1_alg».proof.Proof.Gen.KernelIdeal.Skeleton
import proofs.«132877_j20770461843630_1_alg».proof.Proof.Gen.KernelIdeal.Launch
import proofs.«132877_j20770461843630_1_alg».proof.Proof.Gen.KernelIdeal.Points
import proofs.«132877_j20770461843630_1_alg».proof.Proof.Gen.KernelIdeal.Frame
import proofs.«132877_j20770461843630_1_alg».proof.Proof.Gen.ReferenceIdeal
import proofs.«132877_j20770461843630_1_alg».proof.Proof.Gen.Pre_finite_inputs
import proofs.«132877_j20770461843630_1_alg».proof.Proof.Gen.KernelIdeal.Value
import proofs.«132877_j20770461843630_1_alg».proof.Proof.KernelArray
import proofs.«132877_j20770461843630_1_alg».proof.Proof.ReferenceArray
import proofs.«132877_j20770461843630_1_alg».proof.Proof.ScaleAgree
import Idealize.ShloMosaic.Adequacy
import Idealize.ShloMosaic.Init

noncomputable section

namespace Cert.Proof

open Idealize.ShloMosaic Idealize.SL.Sem Cert.MaskNoise

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Noised.run (F := Ideal) m ρ)

/-- At the extended reals the kernel's result array and the reference's are `noised` of arrays that agree and of
    scales that are one. -/
theorem algebraic : Cert.algebraic_KernelIdeal_ReferenceIdeal := by
  intro m ρ m' ρ' _ hagree
  refine ⟨fun c => noised (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.KernelIdeal.Noised.scaleOf m c), Cert.KernelIdeal.Noised.run (F := Ideal) m ρ, ?_⟩
  refine (θ_run Cert.ReferenceIdeal.defs _ _).mono (fun _ h c => ⟨(h c).1.trans ?_, (h c).2⟩)
    (Cert.ReferenceIdeal.Noised.run (F := Ideal) m' ρ')
  obtain ⟨e0, e1, e2, e3, e4⟩ := hagree c
  rw [e0, e3, e4]
  exact congrArg (noised _ _ _) (Cert.ScaleAgree.scale_agree m m' c e1 e2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
